-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200 : Shape := ⟨2, ![1024, 200]⟩
abbrev S1000002x8 : Shape := ⟨2, ![1000002, 8]⟩
abbrev S8x256x16 : Shape := ⟨3, ![8, 256, 16]⟩
abbrev S_ : Shape := ⟨0, ![]⟩

class Facts : Prop where
  bcast_S_S8x256x16 : S_.BroadcastsInDim S8x256x16 (![] : Fin 0 → Fin S8x256x16.rank)
  reducesTo_S8x256x16_S_d0_1_2 : S8x256x16.ReducesTo [0, 1, 2] S_
  h_S_ : 0 < S_.numel
  bcast_S_S1000002x8 : S_.BroadcastsInDim S1000002x8 (![] : Fin 0 → Fin S1000002x8.rank)
  reducesTo_S1000002x8_S_d0_1 : S1000002x8.ReducesTo [0, 1] S_

variable [Facts]

def fn {F : FTy → Type} [FloatOps F] (main_arg0 : IVec S1024x200 32) (main_arg1 : IVec S1000002x8 32) (main_arg2 : FVec F S8x256x16 .f32) : IVec S_ 1 :=
  let main_v0 : FVec F S8x256x16 .f32 := Host.absf main_arg2
  let main_cst : FVec F S_ .f32 := constant S_ .f32 0x7F800000#32
  let main_v1 : FVec F S8x256x16 .f32 := broadcastInDim S8x256x16 ![] bcast_S_S8x256x16 main_cst
  let main_v2 : IVec S8x256x16 1 := cmpf .olt main_v0 main_v1
  let main_c : IVec S_ 1 := constantI S_ 1 1#1
  let main_v3 : IVec S_ 1 := (fun x v => Host.reduce IntOp.andi x v reducesTo_S8x256x16_S_d0_1_2 h_S_) main_v2 main_c
  let main_c_0 : IVec S_ 32 := constantI S_ 32 0#32
  let main_v4 : IVec S1000002x8 32 := broadcastInDim S1000002x8 ![] bcast_S_S1000002x8 main_c_0
  let main_v5 : IVec S1000002x8 1 := cmpi .sge main_arg1 main_v4
  let main_c_1 : IVec S_ 1 := constantI S_ 1 1#1
  let main_v6 : IVec S_ 1 := (fun x v => Host.reduce IntOp.andi x v reducesTo_S1000002x8_S_d0_1 h_S_) main_v5 main_c_1
  let main_v7 : IVec S_ 1 := andi main_v3 main_v6
  let main_c_2 : IVec S_ 32 := constantI S_ 32 256#32
  let main_v8 : IVec S1000002x8 32 := broadcastInDim S1000002x8 ![] bcast_S_S1000002x8 main_c_2
  let main_v9 : IVec S1000002x8 1 := cmpi .slt main_arg1 main_v8
  let main_c_3 : IVec S_ 1 := constantI S_ 1 1#1
  let main_v10 : IVec S_ 1 := (fun x v => Host.reduce IntOp.andi x v reducesTo_S1000002x8_S_d0_1 h_S_) main_v9 main_c_3
  let main_v11 : IVec S_ 1 := andi main_v7 main_v10
  main_v11
-- ==== Kernel.lean ====
abbrev S1024x200 : Shape := ⟨2, ![1024, 200]⟩
abbrev S1000002x8 : Shape := ⟨2, ![1000002, 8]⟩
abbrev S8x256x16 : Shape := ⟨3, ![8, 256, 16]⟩
abbrev S_ : Shape := ⟨0, ![]⟩
abbrev S1024x200x1 : Shape := ⟨3, ![1024, 200, 1]⟩
abbrev S1024x200x8 : Shape := ⟨3, ![1024, 200, 8]⟩
abbrev S204800x8 : Shape := ⟨2, ![204800, 8]⟩
abbrev S204800x128 : Shape := ⟨2, ![204800, 128]⟩
abbrev S4096x8 : Shape := ⟨2, ![4096, 8]⟩
abbrev S4096x128 : Shape := ⟨2, ![4096, 128]⟩
abbrev S4096x256 : Shape := ⟨2, ![4096, 256]⟩
abbrev S4096x1 : Shape := ⟨2, ![4096, 1]⟩
abbrev S1x256x16 : Shape := ⟨3, ![1, 256, 16]⟩
abbrev S256x16 : Shape := ⟨2, ![256, 16]⟩
abbrev S4096x16 : Shape := ⟨2, ![4096, 16]⟩
abbrev S1024x200x128 : Shape := ⟨3, ![1024, 200, 128]⟩

abbrev nBuf : Space → Nat
  | .hbm => 15
  | .vmem => 5
  | .smem => 0
  | _ => 0

abbrev bufTy : (tb : Table) → Fin (tcTables nBuf tb) → BufTy
  | .hbm, ⟨0, _⟩ => ⟨S1024x200, .i32⟩
  | .hbm, ⟨1, _⟩ => ⟨S1000002x8, .i32⟩
  | .hbm, ⟨2, _⟩ => ⟨S8x256x16, .f32⟩
  | .hbm, ⟨3, _⟩ => ⟨S_, .i32⟩
  | .hbm, ⟨4, _⟩ => ⟨S1024x200, .i32⟩
  | .hbm, ⟨5, _⟩ => ⟨S1024x200, .i1⟩
  | .hbm, ⟨6, _⟩ => ⟨S_, .i32⟩
  | .hbm, ⟨7, _⟩ => ⟨S1024x200, .i32⟩
  | .hbm, ⟨8, _⟩ => ⟨S1024x200, .i32⟩
  | .hbm, ⟨9, _⟩ => ⟨S1024x200, .i32⟩
  | .hbm, ⟨10, _⟩ => ⟨S1024x200x1, .i32⟩
  | .hbm, ⟨11, _⟩ => ⟨S1024x200x8, .i32⟩
  | .hbm, ⟨12, _⟩ => ⟨S204800x8, .i32⟩
  | .hbm, ⟨13, _⟩ => ⟨S204800x128, .f32⟩
  | .hbm, ⟨14, _⟩ => ⟨S1024x200x128, .f32⟩
  | .local _ .vmem, ⟨0, _⟩ => ⟨S4096x8, .i32⟩
  | .local _ .vmem, ⟨1, _⟩ => ⟨S4096x8, .i32⟩
  | .local _ .vmem, ⟨2, _⟩ => ⟨S8x256x16, .f32⟩
  | .local _ .vmem, ⟨3, _⟩ => ⟨S4096x128, .f32⟩
  | .local _ .vmem, ⟨4, _⟩ => ⟨S4096x128, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  shapeCasts_S1024x200x8_S204800x8 : S1024x200x8.ShapeCasts S204800x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  iota_S4096x256_d1_w32 : S4096x256.Iotas .tc 32 [1]
  slices_S4096x8_o0_0_S4096x1 : S4096x8.Slices ![0, 0] S4096x1
  broadcasts_S4096x1_S4096x256 : S4096x1.Broadcasts S4096x256
  natLt_1_32 : 1 < 32
  bitsLt_bf16_f32 : FTy.bits .bf16 < FTy.bits .f32
  inb_S8x256x16_S1x256x16_0_0_0 : ∀ a, (![0, 0, 0] : Fin 3 → Nat) a + S1x256x16.size a ≤ S8x256x16.size a
  h_S1x256x16 : 0 < S1x256x16.numel
  shapeCasts_S1x256x16_S256x16 : S1x256x16.ShapeCasts S256x16
  slices_S4096x8_o0_1_S4096x1 : S4096x8.Slices ![0, 1] S4096x1
  inb_S8x256x16_S1x256x16_1_0_0 : ∀ a, (![1, 0, 0] : Fin 3 → Nat) a + S1x256x16.size a ≤ S8x256x16.size a
  slices_S4096x8_o0_2_S4096x1 : S4096x8.Slices ![0, 2] S4096x1
  inb_S8x256x16_S1x256x16_2_0_0 : ∀ a, (![2, 0, 0] : Fin 3 → Nat) a + S1x256x16.size a ≤ S8x256x16.size a
  slices_S4096x8_o0_3_S4096x1 : S4096x8.Slices ![0, 3] S4096x1
  inb_S8x256x16_S1x256x16_3_0_0 : ∀ a, (![3, 0, 0] : Fin 3 → Nat) a + S1x256x16.size a ≤ S8x256x16.size a
  slices_S4096x8_o0_4_S4096x1 : S4096x8.Slices ![0, 4] S4096x1
  inb_S8x256x16_S1x256x16_4_0_0 : ∀ a, (![4, 0, 0] : Fin 3 → Nat) a + S1x256x16.size a ≤ S8x256x16.size a
  slices_S4096x8_o0_5_S4096x1 : S4096x8.Slices ![0, 5] S4096x1
  inb_S8x256x16_S1x256x16_5_0_0 : ∀ a, (![5, 0, 0] : Fin 3 → Nat) a + S1x256x16.size a ≤ S8x256x16.size a
  slices_S4096x8_o0_6_S4096x1 : S4096x8.Slices ![0, 6] S4096x1
  inb_S8x256x16_S1x256x16_6_0_0 : ∀ a, (![6, 0, 0] : Fin 3 → Nat) a + S1x256x16.size a ≤ S8x256x16.size a
  slices_S4096x8_o0_7_S4096x1 : S4096x8.Slices ![0, 7] S4096x1
  inb_S8x256x16_S1x256x16_7_0_0 : ∀ a, (![7, 0, 0] : Fin 3 → Nat) a + S1x256x16.size a ≤ S8x256x16.size a
  concatenates_S4096x16_S4096x16_S4096x16_S4096x16_S4096x16_S4096x16_S4096x16_S4096x16_S4096x128_d1 : Shape.Concatenates [S4096x16, S4096x16, S4096x16, S4096x16, S4096x16, S4096x16, S4096x16, S4096x16] S4096x128 1
  inb_S4096x128_S4096x128_0_0 : ∀ a, (![0, 0] : Fin 2 → Nat) a + S4096x128.size a ≤ S4096x128.size a
  h_S4096x128 : 0 < S4096x128.numel
  shapeCasts_S204800x128_S1024x200x128 : S204800x128.ShapeCasts S1024x200x128
  gather_S1000002x8_S1024x200x1_S1024x200x8_2_0_n_n_0_2_18_wf : GatherDims.WF S1000002x8 S1024x200x1 S1024x200x8 [2] [0] [] [0] [] 2 ![1, 8]
  dot_S4096x256_S256x16_S4096x16_1_0_0_1_n_n_wf : DotDims.WF S4096x256 S256x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x8.size a ≤ S204800x8.size a
  hwx0_0 : ∀ i : grid0.Coords, EltTy.bits .i32 = 32 ∨ (Rect.block (s := S204800x8) S4096x8.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x16.size a ≤ S8x256x16.size a
  hwx0_1 : ∀ i : grid0.Coords, EltTy.bits .f32 = 32 ∨ (Rect.block (s := S8x256x16) S8x256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S204800x128.size a
  hwx0_2 : ∀ i : grid0.Coords, EltTy.bits .f32 = 32 ∨ (Rect.block (s := S204800x128) S4096x128.size (cc0_transform_2 i) (hinb0_2 i)).WholeWords (EltTy.packing .f32)

variable [Facts₀]

def gather_S1000002x8_S1024x200x1_S1024x200x8_2_0_n_n_0_2_18 : GatherDims S1000002x8 S1024x200x1 S1024x200x8 where
  offsetDims := [2]
  collapsedSliceDims := [0]
  operandBatchingDims := []
  startIndicesBatchingDims := []
  startIndexMap := [0]
  indexVectorDim := 2
  sliceSizes := ![1, 8]
  wf := gather_S1000002x8_S1024x200x1_S1024x200x8_2_0_n_n_0_2_18_wf
def dot_S4096x256_S256x16_S4096x16_1_0_0_1_n_n : DotDims S4096x256 S256x16 S4096x16 where
  lhsContracting := [1]
  rhsContracting := [0]
  lhsNonContracting := [0]
  rhsNonContracting := [1]
  lhsBatch := []
  rhsBatch := []
  wf := dot_S4096x256_S256x16_S4096x16_1_0_0_1_n_n_wf

abbrev win0_0 : Pipeline.Window sig grid0 :=
  Pipeline.Window.ofSpec (Memref.whole main_v7) S4096x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x200 : Shape := ⟨2, ![1024, 200]⟩
abbrev S1000002x8 : Shape := ⟨2, ![1000002, 8]⟩
abbrev S8x256x16 : Shape := ⟨3, ![8, 256, 16]⟩
abbrev S_ : Shape := ⟨0, ![]⟩
abbrev S1024x200x1 : Shape := ⟨3, ![1024, 200, 1]⟩
abbrev S1024x200x8 : Shape := ⟨3, ![1024, 200, 8]⟩
abbrev S8 : Shape := ⟨1, ![8]⟩
abbrev S1x1x8 : Shape := ⟨3, ![1, 1, 8]⟩
abbrev S1024x200x8x1 : Shape := ⟨4, ![1024, 200, 8, 1]⟩
abbrev S1024x200x8x2 : Shape := ⟨4, ![1024, 200, 8, 2]⟩
abbrev S1024x200x8x16 : Shape := ⟨4, ![1024, 200, 8, 16]⟩
abbrev S1024x200x128 : Shape := ⟨3, ![1024, 200, 128]⟩

abbrev nBuf : Space → Nat
  | .hbm => 34
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1000002x8, .i32⟩
  | .hbm, ⟨2, _⟩ => ⟨S8x256x16, .f32⟩
  | .hbm, ⟨3, _⟩ => ⟨S_, .i32⟩
  | .hbm, ⟨4, _⟩ => ⟨S1024x200, .i32⟩
  | .hbm, ⟨5, _⟩ => ⟨S1024x200, .i1⟩
  | .hbm, ⟨6, _⟩ => ⟨S_, .i32⟩
  | .hbm, ⟨7, _⟩ => ⟨S1024x200, .i32⟩
  | .hbm, ⟨8, _⟩ => ⟨S1024x200, .i32⟩
  | .hbm, ⟨9, _⟩ => ⟨S1024x200, .i32⟩
  | .hbm, ⟨10, _⟩ => ⟨S1024x200x1, .i32⟩
  | .hbm, ⟨11, _⟩ => ⟨S1024x200x8, .i32⟩
  | .hbm, ⟨12, _⟩ => ⟨S8, .i32⟩
  | .hbm, ⟨13, _⟩ => ⟨S1x1x8, .i32⟩
  | .hbm, ⟨14, _⟩ => ⟨S_, .i32⟩
  | .hbm, ⟨15, _⟩ => ⟨S1x1x8, .i32⟩
  | .hbm, ⟨16, _⟩ => ⟨S1x1x8, .i1⟩
  | .hbm, ⟨17, _⟩ => ⟨S_, .i32⟩
  | .hbm, ⟨18, _⟩ => ⟨S1x1x8, .i32⟩
  | .hbm, ⟨19, _⟩ => ⟨S1x1x8, .i32⟩
  | .hbm, ⟨20, _⟩ => ⟨S1x1x8, .i32⟩
  | .hbm, ⟨21, _⟩ => ⟨S_, .i32⟩
  | .hbm, ⟨22, _⟩ => ⟨S1024x200x8, .i32⟩
  | .hbm, ⟨23, _⟩ => ⟨S1024x200x8, .i1⟩
  | .hbm, ⟨24, _⟩ => ⟨S_, .i32⟩
  | .hbm, ⟨25, _⟩ => ⟨S1024x200x8, .i32⟩
  | .hbm, ⟨26, _⟩ => ⟨S1024x200x8, .i32⟩
  | .hbm, ⟨27, _⟩ => ⟨S1024x200x8, .i32⟩
  | .hbm, ⟨28, _⟩ => ⟨S1024x200x8, .i32⟩
  | .hbm, ⟨29, _⟩ => ⟨S1024x200x8x1, .i32⟩
  | .hbm, ⟨30, _⟩ => ⟨S1024x200x8x1, .i32⟩
  | .hbm, ⟨31, _⟩ => ⟨S1024x200x8x2, .i32⟩
  | .hbm, ⟨32, _⟩ => ⟨S1024x200x8x16, .f32⟩
  | .hbm, ⟨33, _⟩ => ⟨S1024x200x128, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S_S1024x200 : S_.BroadcastsInDim S1024x200 (![] : Fin 0 → Fin S1024x200.rank)
  bcast_S1024x200_S1024x200x1_0_1 : S1024x200.BroadcastsInDim S1024x200x1 (![0, 1] : Fin 2 → Fin S1024x200x1.rank)
  bcast_S8_S1x1x8_2 : S8.BroadcastsInDim S1x1x8 (![2] : Fin 1 → Fin S1x1x8.rank)
  bcast_S_S1x1x8 : S_.BroadcastsInDim S1x1x8 (![] : Fin 0 → Fin S1x1x8.rank)
  bcast_S_S1024x200x8 : S_.BroadcastsInDim S1024x200x8 (![] : Fin 0 → Fin S1024x200x8.rank)
  bcast_S1x1x8_S1024x200x8_0_1_2 : S1x1x8.BroadcastsInDim S1024x200x8 (![0, 1, 2] : Fin 3 → Fin S1024x200x8.rank)
  bcast_S1024x200x8_S1024x200x8x1_0_1_2 : S1024x200x8.BroadcastsInDim S1024x200x8x1 (![0, 1, 2] : Fin 3 → Fin S1024x200x8x1.rank)
  concatenates_S1024x200x8x1_S1024x200x8x1_S1024x200x8x2_d3 : Shape.Concatenates [S1024x200x8x1, S1024x200x8x1] S1024x200x8x2 3
  shapeCasts_S1024x200x8x16_S1024x200x128 : S1024x200x8x16.ShapeCasts S1024x200x128
  gather_S1000002x8_S1024x200x1_S1024x200x8_2_0_n_n_0_2_18_wf : GatherDims.WF S1000002x8 S1024x200x1 S1024x200x8 [2] [0] [] [0] [] 2 ![1, 8]
  gather_S8x256x16_S1024x200x8x2_S1024x200x8x16_3_01_n_n_01_3_1116_wf : GatherDims.WF S8x256x16 S1024x200x8x2 S1024x200x8x16 [3] [0, 1] [] [0, 1] [] 3 ![1, 1, 16]

variable [Facts₀]

def gather_S1000002x8_S1024x200x1_S1024x200x8_2_0_n_n_0_2_18 : GatherDims S1000002x8 S1024x200x1 S1024x200x8 where
  offsetDims := [2]
  collapsedSliceDims := [0]
  operandBatchingDims := []
  startIndicesBatchingDims := []
  startIndexMap := [0]
  indexVectorDim := 2
  sliceSizes := ![1, 8]
  wf := gather_S1000002x8_S1024x200x1_S1024x200x8_2_0_n_n_0_2_18_wf
def gather_S8x256x16_S1024x200x8x2_S1024x200x8x16_3_01_n_n_01_3_1116 : GatherDims S8x256x16 S1024x200x8x2 S1024x200x8x16 where
  offsetDims := [3]
  collapsedSliceDims := [0, 1]
  operandBatchingDims := []
  startIndicesBatchingDims := []
  startIndexMap := [0, 1]
  indexVectorDim := 3
  sliceSizes := ![1, 1, 16]
  wf := gather_S8x256x16_S1024x200x8x2_S1024x200x8x16_3_01_n_n_01_3_1116_wf

class Facts : Prop extends Facts₀ where

variable [Facts]
-- ==== Proof.PreFacts.lean ====
/-
  What the precondition says of the code table: every entry of item_codes is a word between 0 and 255.
-/
import proofs.«410190_j39779987096003_1_alg».proof.Pre_finite_inputs
import Idealize.ShloMosaic.PureOps.Ideal
import Idealize.ShloMosaic.Lib.ReduceAll
import Idealize.ShloMosaic.Lib.StableHlo.Predicate

noncomputable section

namespace Cert.PqDecode

open Idealize.ShloMosaic

/-- A 32-bit word that, read signed, is at least 0 and below 256 has unsigned value below 256: a word that is
    nonnegative when read signed has its top bit clear, so its two readings agree. -/
private theorem toNat_lt_256_of_signed (w : BitVec 32) (h0 : (0#32 : BitVec 32).toInt ≤ w.toInt)
    (h1 : w.toInt < (256#32 : BitVec 32).toInt) : w.toNat < 256 := by
  have e0 : (0#32 : BitVec 32).toInt = 0 := by decide
  have e1 : (256#32 : BitVec 32).toInt = 256 := by decide
  rw [e0] at h0
  rw [e1] at h1
  have hw := w.isLt
  rw [BitVec.toInt_eq_toNat_cond] at h0 h1
  split at h0 <;> omega

theorem codes_in_range [Cert.Pre_finite_inputs.Facts]
    (ids : IVec Cert.Pre_finite_inputs.S1024x200 32) (tab : IVec Cert.Pre_finite_inputs.S1000002x8 32)
    (cen : FVec Ideal Cert.Pre_finite_inputs.S8x256x16 .f32)
    (h : Cert.Pre_finite_inputs.fn (F := Ideal) ids tab cen = fun _ => 1#1) :
    ∀ q, (tab q).toNat < 256 := by
  intro q
  -- the scalar shape has one index
  haveI : Subsingleton Cert.Pre_finite_inputs.S_.Idx := ⟨fun _ _ => funext fun d => d.elim0⟩
  -- the predicate's one element is 1
  have h0 := congrFun h (fun a => a.elim0)
  dsimp only [Cert.Pre_finite_inputs.fn] at h0
  -- it is the conjunction of three reductions by "and"; the last two speak of the code table
  obtain ⟨h12, h3⟩ := IntOp.andi_eq_one.1 h0
  obtain ⟨_, h2⟩ := IntOp.andi_eq_one.1 h12
  -- a reduction by "and" over all axes that came out 1 met a 1 at every entry
  have hge := Host.reduce_andi_all _ _ _ _ _ h2 q
  have hlt := Host.reduce_andi_all _ _ _ _ _ h3 q
  -- a broadcast scalar constant reads as that constant at every entry
  have hge' : IntOp.cmpi .sge (tab q) 0#32 = 1#1 := hge
  have hlt' : IntOp.cmpi .slt (tab q) 256#32 = 1#1 := hlt
  -- signed 0 ≤ w and signed w < 256 give the unsigned bound
  exact toNat_lt_256_of_signed (tab q) (IntOp.cmpi_sge.1 hge') (IntOp.cmpi_slt.1 hlt')

end Cert.PqDecode

end
-- ==== Proof.Spec.lean ====
/-
  The decoded embedding as one function. Token (b, s) carries eight code words, one per sub-codebook; output lane j of
  the token belongs to sub-codebook j / 16 and is entry j % 16 of the codebook row its code word names. The same function
  is also written over the tokens laid out flat, 204800 rows of eight code words.
-/
import Idealize.ShloMosaic.PureOps.Ideal
import Idealize.ShloMosaic.Lib.ValueIdx

noncomputable section

namespace Cert.PqDecode

open Idealize.ShloMosaic Idealize.ShloMosaic.ValueIdx

/-- The sub-codebook an output lane belongs to. -/
abbrev grp (j : Fin 128) : Fin 8 := ⟨j.val / 16, by have := j.isLt; omega⟩

/-- The position of an output lane inside its sub-codebook's row. -/
abbrev lane (j : Fin 128) : Fin 16 := ⟨j.val % 16, Nat.mod_lt _ (by decide)⟩

/-- The codebook row a code word names (a code word below 256 names the row of its own value). -/
abbrev rowOfCode (w : BitVec 32) : Fin 256 := ⟨w.toNat % 256, Nat.mod_lt _ (by decide)⟩

/-- Entry (b, s, j) of the decoded embedding, from the code words C[b, s, :] and the codebooks. -/
def G (C : IVec (⟨3, ![1024, 200, 8]⟩ : Shape) 32) (cen : FVec Ideal (⟨3, ![8, 256, 16]⟩ : Shape) .f32) :
    FVec Ideal (⟨3, ![1024, 200, 128]⟩ : Shape) .f32 := fun i =>
  cen (ix3 (grp ⟨(i 2).val, (i 2).isLt⟩)
    (rowOfCode (C (ix3 ⟨(i 0).val, (i 0).isLt⟩ ⟨(i 1).val, (i 1).isLt⟩ (grp ⟨(i 2).val, (i 2).isLt⟩))))
    (lane ⟨(i 2).val, (i 2).isLt⟩))

/-- The same over the tokens laid out flat: entry (R, j) from the code words X[R, :]. -/
def Gflat (X : IVec (⟨2, ![204800, 8]⟩ : Shape) 32) (cen : FVec Ideal (⟨3, ![8, 256, 16]⟩ : Shape) .f32) :
    FVec Ideal (⟨2, ![204800, 128]⟩ : Shape) .f32 := fun i =>
  cen (ix3 (grp ⟨(i 1).val, (i 1).isLt⟩)
    (rowOfCode (X (ix2 ⟨(i 0).val, (i 0).isLt⟩ (grp ⟨(i 1).val, (i 1).isLt⟩))))
    (lane ⟨(i 1).val, (i 1).isLt⟩))

end Cert.PqDecode

end
-- ==== Proof.LibRowOps.lean ====
/-
  Host row operations read at an index, over the extended reals and arbitrary sizes: a scatter-add of E scalars
  into a vector of length N, a scatter-add of E rows into an N x C table, a gather of E rows out of an N x C table,
  and a one-row dynamic slice of an N x C table. A scatter index is read signed and not clamped (an update whose
  index is outside 0..N-1 lands nowhere); a gather or slice start is read signed and clamped into 0..N-1.
-/
import Idealize.ShloMosaic.PureOps.Ideal
import Idealize.ShloMosaic.Lib.ValueIdx

noncomputable section

namespace Cert.LibRowOps

open Idealize.ShloMosaic Idealize.ShloMosaic.ValueIdx

/-- The row a clamped signed start z selects in a table of N rows. -/
def clampRow (N : Nat) (hN : 0 < N) (z : Int) : Fin N := ⟨(min (max z 0) ((N - 1 : Nat) : Int)).toNat, by omega⟩

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- An update lands at operand index i exactly when, on every operand axis, its signed start plus its window
    coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hh a
      rw [← hh]
      exact (Int.toNat_of_nonneg (h a).1).symm
    · intro hh
      funext a
      refine Fin.ext ?_
      show (d.start j idx a + (d.window j a : ℤ)).toNat = (i a).val
      rw [hh a]; rfl
  · rename_i h
    constructor
    · intro hh; cases hh
    · intro hh
      refine absurd (fun a => ?_) h
      rw [hh a]
      exact ⟨Int.natCast_nonneg _, by exact_mod_cast (i a).isLt⟩

/-- Rank 1, one scatter axis and no window: an update lands at n exactly when its signed index is n. -/
theorem vec_resultIdx?_iff {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1) (idx : IVec ⟨2, ![E, 1]⟩ w) (e : Fin E) (n : Fin N) :
    d.resultIdx? (ix1 e) idx = some (ix1 n) ↔ (idx (ix2 e 0)).toInt = (n.val : ℤ) := by
  obtain ⟨uw, iw, sd, iv, wf⟩ := d
  simp only at hu hi hs hv
  subst hu hi hs hv
  rw [resultIdx?_eq_some_iff, Fin.forall_fin_one]
  have hstart : (ScatterDims.mk (s := ⟨1, ![N]⟩) (si := ⟨2, ![E, 1]⟩) (u := ⟨1, ![E]⟩) [] [0] [0] 1 wf).start (ix1 e) idx 0
      = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk (s := ⟨1, ![N]⟩) (si := ⟨2, ![E, 1]⟩) (u := ⟨1, ![E]⟩) [] [0] [0] 1 wf).window (ix1 e) 0 = 0 := by
    unfold ScatterDims.window
    rw [dif_neg (by simp [Shape.kept])]
  rw [hstart, hwin]
  simp

/-- E scalars added into a vector of length N at signed, unclamped indices: entry n ends at its old value plus
    the updates whose index is n. -/
theorem scatterAdd_vec_apply {N E w : Nat} (d : ScatterDims ⟨1, ![N]⟩ ⟨2, ![E, 1]⟩ ⟨1, ![E]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![E, 1]⟩ w) (upd : (⟨1, ![E]⟩ : Shape).Idx → EReal) (n : Fin N) :
    Ideal.hostScatterAdd d x idx upd (ix1 n)
      = x (ix1 n) + ∑ e : Fin E, (if (idx (ix2 e 0)).toInt = (n.val : ℤ) then upd (ix1 e) else 0) := by
  unfold Ideal.hostScatterAdd
  congr 1
  rw [Finset.sum_filter, sum_idx1]
  refine Finset.sum_congr rfl fun e _ => ?_
  simp only [vec_resultIdx?_iff d hu hi hs hv idx e n]

/-- Rank 2, one scatter axis (the rows) and one window axis (the columns): the update at row e, column f' lands
    at (n, f) exactly when f' = f and row e's signed index is n. -/
theorem rows_resultIdx?_iff {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1) (idx : IVec ⟨2, ![E, 1]⟩ w) (e : Fin E) (f' f : Fin C) (n : Fin N) :
    d.resultIdx? (ix2 e f') idx = some (ix2 n f) ↔ f' = f ∧ (idx (ix2 e 0)).toInt = (n.val : ℤ) := by
  obtain ⟨uw, iw, sd, iv, wf⟩ := d
  simp only at hu hi hs hv
  subst hu hi hs hv
  rw [resultIdx?_eq_some_iff, Fin.forall_fin_two]
  have hstart0 : (ScatterDims.mk (s := ⟨2, ![N, C]⟩) (si := ⟨2, ![E, 1]⟩) (u := ⟨2, ![E, C]⟩) [1] [0] [0] 1 wf).start
      (ix2 e f') idx 0 = (idx (ix2 e 0)).toInt := by
    unfold ScatterDims.start
    rw [dif_pos (List.mem_singleton.mpr rfl)]
    congr 2
    funext b
    refine Fin.ext ?_
    match b with
    | ⟨0, _⟩ => rfl
    | ⟨1, _⟩ => rfl
  have hwin0 : (ScatterDims.mk (s := ⟨2, ![N, C]⟩) (si := ⟨2, ![E, 1]⟩) (u := ⟨2, ![E, C]⟩) [1] [0] [0] 1 wf).window
      (ix2 e f') 0 = 0 := by
    unfold ScatterDims.window
    rw [dif_neg (by simp [Shape.kept])]
  have hstart1 : (ScatterDims.mk (s := ⟨2, ![N, C]⟩) (si := ⟨2, ![E, 1]⟩) (u := ⟨2, ![E, C]⟩) [1] [0] [0] 1 wf).start
      (ix2 e f') idx 1 = 0 := by
    unfold ScatterDims.start
    rw [dif_neg (by simp)]
  have hwin1 : (ScatterDims.mk (s := ⟨2, ![N, C]⟩) (si := ⟨2, ![E, 1]⟩) (u := ⟨2, ![E, C]⟩) [1] [0] [0] 1 wf).window
      (ix2 e f') 1 = f'.val := by
    unfold ScatterDims.window
    rw [dif_pos (by simp [Shape.kept, List.finRange])]
    rfl
  rw [hstart0, hwin0, hstart1, hwin1]
  show (idx (ix2 e 0)).toInt + ((0 : ℕ) : ℤ) = (n.val : ℤ) ∧ (0 : ℤ) + (f'.val : ℤ) = (f.val : ℤ) ↔ _
  rw [Fin.ext_iff]
  constructor
  · rintro ⟨h1, h2⟩; exact ⟨by omega, by omega⟩
  · rintro ⟨h1, h2⟩; exact ⟨by omega, by omega⟩

/-- E rows added into an N x C table at signed, unclamped row indices. -/
theorem scatterAdd_rows_apply {N C E w : Nat} (d : ScatterDims ⟨2, ![N, C]⟩ ⟨2, ![E, 1]⟩ ⟨2, ![E, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![E, 1]⟩ w) (upd : (⟨2, ![E, C]⟩ : Shape).Idx → EReal)
    (n : Fin N) (f : Fin C) :
    Ideal.hostScatterAdd d x idx upd (ix2 n f)
      = x (ix2 n f) + ∑ e : Fin E, (if (idx (ix2 e 0)).toInt = (n.val : ℤ) then upd (ix2 e f) else 0) := by
  unfold Ideal.hostScatterAdd
  congr 1
  rw [Finset.sum_filter, sum_idx2]
  refine Finset.sum_congr rfl fun e _ => ?_
  simp only [rows_resultIdx?_iff d hu hi hs hv idx e _ f n]
  rw [Finset.sum_eq_single f]
  · simp
  · intro f' _ hne
    rw [if_neg (fun h => hne h.1)]
  · intro h; exact absurd (Finset.mem_univ f) h

/-- E rows gathered out of an N x C table: row e of the result is the table's row at the clamped signed index. -/
theorem gather_rows_apply {α : Type} {N C E w : Nat} (hN : 0 < N) (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (hsz : d.sliceSizes = ![1, C])
    (x : (⟨2, ![N, C]⟩ : Shape).Idx → α) (idx : IVec ⟨2, ![E, 1]⟩ w) (e : Fin E) (f : Fin C) :
    Host.gather d x idx (ix2 e f) = x (ix2 (clampRow N hN (idx (ix2 e 0)).toInt) f) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix2 e f) idx a + GatherDims.batchCoord _ (ix2 e f) a + GatherDims.offCoord _ (ix2 e f) a = _
  rw [GatherDims.batchCoord_eq_zero _ _ _ List.not_mem_nil, Nat.add_zero]
  revert a
  rw [Fin.forall_fin_two]
  refine ⟨?_, ?_⟩
  · rw [GatherDims.offCoord_eq_zero _ _ _ (fun h => ((GatherDims.mem_sKept _ _).mp h).1 (List.mem_singleton.mpr rfl)),
      Nat.add_zero]
    unfold GatherDims.start
    rw [dif_pos (List.mem_singleton.mpr rfl)]
    have hsi : ∀ c, GatherDims.siIdx (s := ⟨2, ![N, C]⟩) (si := ⟨2, ![E, 1]⟩) (t := ⟨2, ![E, C]⟩)
        ⟨[1], [0], [], [], [0], 1, ![1, C], wf⟩ (ix2 e f) c = ix2 e 0 := by
      intro c
      funext b; refine Fin.ext ?_
      match b with
      | ⟨0, _⟩ => rfl
      | ⟨1, _⟩ => exact Nat.lt_one_iff.mp c.isLt
    rw [hsi]
    show min (idx (ix2 e 0)).toInt.toNat (N - 1) = (min (max (idx (ix2 e 0)).toInt 0) ((N - 1 : Nat) : Int)).toNat
    omega
  · unfold GatherDims.start
    rw [dif_neg (by simp), Nat.zero_add]
    rfl

/-- A one-row dynamic slice of an N x C table whose column start is 0: the row at the clamped signed start. -/
theorem dynamicSlice_row_apply {α : Type} {N C : Nat} (hN : 0 < N) (x : (⟨2, ![N, C]⟩ : Shape).Idx → α) (start : Fin 2 → Int)
    (h0 : start 1 = 0) (h : (⟨2, ![N, C]⟩ : Shape).Slices (fun _ => 0) ⟨2, ![1, C]⟩) (f : Fin C) :
    Host.dynamicSlice (s := ⟨2, ![N, C]⟩) ⟨2, ![1, C]⟩ x start h (ix2 0 f) = x (ix2 (clampRow N hN (start 0)) f) := by
  show x _ = x _
  congr 1
  funext a
  refine Fin.ext ?_
  match a with
  | ⟨0, _⟩ =>
    show (min (max (start 0) 0) ((N - 1 : Nat) : Int)).toNat + 0 = (min (max (start 0) 0) ((N - 1 : Nat) : Int)).toNat
    rfl
  | ⟨1, _⟩ =>
    show (min (max (start 1) 0) ((C - C : Nat) : Int)).toNat + f.val = f.val
    rw [h0]; simp

end Cert.LibRowOps

end
-- ==== Proof.LibGatherPair.lean ====
/-
  A host gather whose start indices are pairs, read at an index, at arbitrary sizes and element type: out of an
  A x B x D array, for each position (r, c, m) of an R x C x M x 2 array of index pairs, the D entries of the row the
  pair names. Each component of the pair is read signed and clamped into its axis.
-/
import Idealize.ShloMosaic.PureOps.Ideal
import Idealize.ShloMosaic.Lib.ValueIdx
import proofs.«410190_j39779987096003_1_alg».proof.Proof.LibRowOps

noncomputable section

namespace Cert.LibGatherPair

open Idealize.ShloMosaic Idealize.ShloMosaic.ValueIdx Cert.LibRowOps

theorem gather_pair_apply {α : Type} {A B D R C M w : Nat} (hA : 0 < A) (hB : 0 < B)
    (d : GatherDims ⟨3, ![A, B, D]⟩ ⟨4, ![R, C, M, 2]⟩ ⟨4, ![R, C, M, D]⟩)
    (ho : d.offsetDims = [3]) (hc : d.collapsedSliceDims = [0, 1]) (hb : d.operandBatchingDims = [])
    (hsb : d.startIndicesBatchingDims = []) (hm : d.startIndexMap = [0, 1]) (hv : d.indexVectorDim = 3)
    (hsz : d.sliceSizes = ![1, 1, D])
    (x : (⟨3, ![A, B, D]⟩ : Shape).Idx → α) (idx : IVec ⟨4, ![R, C, M, 2]⟩ w)
    (r : Fin R) (c : Fin C) (m : Fin M) (e : Fin D) :
    Host.gather d x idx (ix4 r c m e)
      = x (ix3 (clampRow A hA (idx (ix4 r c m 0)).toInt) (clampRow B hB (idx (ix4 r c m 1)).toInt) e) := by
  obtain ⟨od, cd, ob, sb, sm, iv, ss, wf⟩ := d
  simp only at ho hc hb hsb hm hv hsz
  subst ho hc hb hsb hm hv hsz
  unfold Host.gather
  congr 1
  funext a
  refine Fin.ext ?_
  show GatherDims.start _ (ix4 r c m e) idx a + GatherDims.batchCoord _ (ix4 r c m e) a
    + GatherDims.offCoord _ (ix4 r c m e) a = _
  rw [GatherDims.batchCoord_eq_zero _ _ _ List.not_mem_nil, Nat.add_zero]
  -- the start-indices position read for component k of the pair is (r, c, m, k)
  have hsi : ∀ k : Fin 2, GatherDims.siIdx (s := ⟨3, ![A, B, D]⟩) (si := ⟨4, ![R, C, M, 2]⟩) (t := ⟨4, ![R, C, M, D]⟩)
      ⟨[3], [0, 1], [], [], [0, 1], 3, ![1, 1, D], wf⟩ (ix4 r c m e) k = ix4 r c m k := by
    intro k
    funext b; refine Fin.ext ?_
    match b with
    | ⟨0, _⟩ => rfl
    | ⟨1, _⟩ => rfl
    | ⟨2, _⟩ => rfl
    | ⟨3, _⟩ => rfl
  match a with
  | ⟨0, _⟩ =>
    -- a collapsed axis named by the pair's component 0: the clamped signed start, no offset
    rw [GatherDims.offCoord_eq_zero _ _ _ (fun h => ((GatherDims.mem_sKept _ _).mp h).1 (by simp)), Nat.add_zero]
    unfold GatherDims.start
    rw [dif_pos (by simp)]
    refine (congrArg (fun q => min (idx q).toInt.toNat (A - 1)) (hsi 0)).trans ?_
    show min (idx (ix4 r c m 0)).toInt.toNat (A - 1) = (min (max (idx (ix4 r c m 0)).toInt 0) ((A - 1 : Nat) : Int)).toNat
    omega
  | ⟨1, _⟩ =>
    -- a collapsed axis named by the pair's component 1
    rw [GatherDims.offCoord_eq_zero _ _ _ (fun h => ((GatherDims.mem_sKept _ _).mp h).1 (by simp)), Nat.add_zero]
    unfold GatherDims.start
    rw [dif_pos (by simp)]
    refine (congrArg (fun q => min (idx q).toInt.toNat (B - 1)) (hsi 1)).trans ?_
    show min (idx (ix4 r c m 1)).toInt.toNat (B - 1) = (min (max (idx (ix4 r c m 1)).toInt 0) ((B - 1 : Nat) : Int)).toNat
    omega
  | ⟨2, _⟩ =>
    -- the one kept axis: start 0, offset the result's last coordinate
    unfold GatherDims.start
    rw [dif_neg (by simp), Nat.zero_add]
    rfl

end Cert.LibGatherPair

end
-- ==== Proof.RefValue.lean ====
/-
  The reference's result is the decoded embedding of the code words it gathers: its index pair at (b, s, k) is
  (k, the code word C[b, s, k]); k is below 8 and, for a code word below 256, neither the negative-index wrap nor the
  gather's clamp moves it; the final reshape sends lane j of token (b, s) to (k, d) = (j / 16, j % 16).
-/
import proofs.«410190_j39779987096003_1_alg».proof.Proof.Gen.ReferenceIdeal.Read
import proofs.«410190_j39779987096003_1_alg».proof.Proof.Spec
import proofs.«410190_j39779987096003_1_alg».proof.Proof.LibGatherPair
import Idealize.ShloMosaic.Lib.Pipeline.Value
import Idealize.ShloMosaic.Lib.StableHlo.Predicate

noncomputable section

namespace Cert.ReferenceIdeal.PqRef

open Idealize.ShloMosaic Idealize.ShloMosaic.ValueIdx Cert.ReferenceIdeal Cert.ReferenceIdeal.Gen Cert.PqDecode

open Cert.LibRowOps Cert.LibGatherPair

/-- A word below 2^31 is not negative, so the negative-index wrap (add n when below zero) leaves it. -/
theorem wrap_of_small (c n : BitVec 32) (h : c.toNat < 2 ^ 31) :
    Scalar.select (IntOp.cmpi .slt c 0#32) (IntOp.addi c n) c = c := by
  have h0 : IntOp.cmpi .slt c 0#32 = 0#1 := by
    refine eq_zero_of_ne_one (fun h1 => ?_)
    have h2 := (StableHlo.Predicate.slt_iff_toNat h (by decide)).mp h1
    simp at h2
  rw [h0, select_zero]

/-- A word whose value is below N (and below 2^31) read signed and clamped into 0..N-1 is its own value. -/
theorem clampRow_of_lt (N : Nat) (hN : 0 < N) (c : BitVec 32) (h : c.toNat < N) (h31 : c.toNat < 2 ^ 31) :
    clampRow N hN c.toInt = ⟨c.toNat, h⟩ := by
  refine Fin.ext ?_
  show (min (max c.toInt 0) ((N - 1 : Nat) : Int)).toNat = c.toNat
  rw [StableHlo.Predicate.toInt_eq_toNat_of_lt h31]
  omega

/-- The sub-codebook number after its wrap, at (0, 0, k): the word k. -/
theorem v13_at (k : Fin 8) : Read.val_main_v13 (F := Ideal) (ix3 0 0 k) = BitVec.ofNat 32 k.val := by
  rw [Read.val_main_v13_apply, Read.val_main_v10_apply, Read.val_main_v12_apply, Read.val_main_v9_apply,
    Read.val_main_c_1_apply, Read.val_main_v8_apply, Read.val_main_v7_apply]
  refine wrap_of_small _ _ ?_
  have hk : k.val < 8 := k.isLt
  show (BitVec.ofNat 32 k.val).toNat < 2 ^ 31
  rw [BitVec.toNat_ofNat]
  omega

/-- Component 0 of the index pair at (b, s, k): the word k. -/
theorem v22_fst (ids : IVec S1024x200 32) (tab : IVec S1000002x8 32) (b : Fin 1024) (s : Fin 200) (k : Fin 8) :
    Read.val_main_v22 (F := Ideal) ids tab (ix4 b s k 0) = BitVec.ofNat 32 k.val := by
  unfold Read.val_main_v22
  refine (concatenate_pair_apply_left (t := S1024x200x8x2) (s₁ := S1024x200x8x1) (s₂ := S1024x200x8x1) (3 : Fin S1024x200x8x2.rank) _ _ _ (ix4 b s k (0 : Fin 2)) rfl
    (ix4 b s k (0 : Fin 1) : S1024x200x8x1.Idx) (fun a => ?_)).trans ?_
  · match a with
    | ⟨0, _⟩ => rfl
    | ⟨1, _⟩ => rfl
    | ⟨2, _⟩ => rfl
    | ⟨3, _⟩ => rfl
  · rw [Read.val_main_v20_apply, Read.val_main_v19_apply]
    exact v13_at k

/-- Component 1 of the index pair at (b, s, k): the wrapped code word at (b, s, k). -/
theorem v22_snd (ids : IVec S1024x200 32) (tab : IVec S1000002x8 32) (b : Fin 1024) (s : Fin 200) (k : Fin 8) :
    Read.val_main_v22 (F := Ideal) ids tab (ix4 b s k 1) = Read.val_main_v18 (F := Ideal) ids tab (ix3 b s k) := by
  unfold Read.val_main_v22
  refine (concatenate_pair_apply_right (t := S1024x200x8x2) (s₁ := S1024x200x8x1) (s₂ := S1024x200x8x1) (3 : Fin S1024x200x8x2.rank) _ _ _ (ix4 b s k (1 : Fin 2)) rfl rfl
    (ix4 b s k (0 : Fin 1) : S1024x200x8x1.Idx) (fun a ha => ?_) rfl).trans ?_
  · match a with
    | ⟨0, _⟩ => rfl
    | ⟨1, _⟩ => rfl
    | ⟨2, _⟩ => rfl
    | ⟨3, _⟩ => exact absurd rfl ha
  · rw [Read.val_main_v21_apply]
    refine congrArg (Read.val_main_v18 (F := Ideal) ids tab) ?_
    funext a
    refine Fin.ext ?_
    match a with
    | ⟨0, _⟩ => rfl
    | ⟨1, _⟩ => rfl
    | ⟨2, _⟩ => rfl

/-- The wrapped code word is the code word when it is below 256. -/
theorem v18_of_small (ids : IVec S1024x200 32) (tab : IVec S1000002x8 32) (i : S1024x200x8.Idx)
    (h : (Read.val_main_v6 (F := Ideal) ids tab i).toNat < 256) :
    Read.val_main_v18 (F := Ideal) ids tab i = Read.val_main_v6 (F := Ideal) ids tab i := by
  rw [Read.val_main_v18_apply, Read.val_main_v15_apply, Read.val_main_v17_apply, Read.val_main_v14_apply,
    Read.val_main_c_3_apply]
  exact wrap_of_small _ _ (by omega)

/-- The word k (below 8) read signed and clamped into 0..7 is k. -/
theorem clampRow_subcodebook (k : Fin 8) : clampRow 8 (by decide) (BitVec.ofNat 32 k.val).toInt = k := by
  have hk : k.val < 8 := k.isLt
  have h1 : (BitVec.ofNat 32 k.val).toNat = k.val := by rw [BitVec.toNat_ofNat]; omega
  rw [clampRow_of_lt 8 (by decide) _ (by rw [h1]; exact hk) (by rw [h1]; omega)]
  exact Fin.ext h1

/-- A code word below 256 read signed and clamped into 0..255 names the row of its own value. -/
theorem clampRow_code (c : BitVec 32) (h : c.toNat < 256) : clampRow 256 (by decide) c.toInt = rowOfCode c := by
  rw [clampRow_of_lt 256 (by decide) c h (by omega)]
  exact Fin.ext (Nat.mod_eq_of_lt h).symm

/-- The second gather at (b, s, k, e): entry e of the row of sub-codebook k that the code word at (b, s, k) names. -/
theorem v23_at (ids : IVec S1024x200 32) (tab : IVec S1000002x8 32) (cen : FVec Ideal S8x256x16 .f32)
    (hC : ∀ i, (Read.val_main_v6 (F := Ideal) ids tab i).toNat < 256)
    (b : Fin 1024) (s : Fin 200) (k : Fin 8) (e : Fin 16) :
    Read.val_main_v23 (F := Ideal) ids tab cen (ix4 b s k e)
      = cen (ix3 k (rowOfCode (Read.val_main_v6 (F := Ideal) ids tab (ix3 b s k))) e) := by
  unfold Read.val_main_v23
  refine (gather_pair_apply (A := 8) (B := 256) (D := 16) (R := 1024) (C := 200) (M := 8) (w := 32)
    (by decide) (by decide) gather_S8x256x16_S1024x200x8x2_S1024x200x8x16_3_01_n_n_01_3_1116
    rfl rfl rfl rfl rfl rfl rfl cen (Read.val_main_v22 (F := Ideal) ids tab) b s k e).trans ?_
  rw [v22_fst, v22_snd, v18_of_small ids tab _ (hC _), clampRow_subcodebook, clampRow_code _ (hC _)]

/-- The decoded embedding at explicit coordinates. -/
theorem G_at (C : IVec (⟨3, ![1024, 200, 8]⟩ : Shape) 32) (cen : FVec Ideal (⟨3, ![8, 256, 16]⟩ : Shape) .f32)
    (b : Fin 1024) (s : Fin 200) (j : Fin 128) :
    G C cen (ix3 b s j) = cen (ix3 (grp j) (rowOfCode (C (ix3 b s (grp j)))) (lane j)) := rfl

/-- The final reshape reads lane j of token (b, s) at (b, s, j / 16, j % 16). -/
theorem idx_v24_at (b : Fin 1024) (s : Fin 200) (j : Fin 128) :
    Read.idx_main_v24 (ix3 b s j) = ix4 b s (grp j) (lane j) := by
  have hb : b.val < 1024 := b.isLt
  have hs : s.val < 200 := s.isLt
  have hj : j.val < 128 := j.isLt
  funext a
  refine Fin.ext ?_
  match a with
  | ⟨0, _⟩ => show ((b.val * 200 + s.val) * 128 + j.val) / 25600 = b.val; omega
  | ⟨1, _⟩ => show ((b.val * 200 + s.val) * 128 + j.val) / 128 % 200 = s.val; omega
  | ⟨2, _⟩ => show ((b.val * 200 + s.val) * 128 + j.val) / 16 % 8 = j.val / 16; omega
  | ⟨3, _⟩ => show ((b.val * 200 + s.val) * 128 + j.val) % 16 = j.val % 16; omega

theorem ref_eq_G (ids : IVec S1024x200 32) (tab : IVec S1000002x8 32) (cen : FVec Ideal S8x256x16 .f32)
    (hC : ∀ i, (Read.val_main_v6 (F := Ideal) ids tab i).toNat < 256) :
    Read.val_main_v24 (F := Ideal) ids tab cen = G (Read.val_main_v6 (F := Ideal) ids tab) cen := by
  funext i
  obtain ⟨b, s, j, rfl⟩ : ∃ b s j, i = ix3 b s j := ⟨i 0, i 1, i 2, eq_ix3 i⟩
  rw [Read.val_main_v24_apply, idx_v24_at, v23_at ids tab cen hC, G_at]

end Cert.ReferenceIdeal.PqRef

end
-- ==== Proof.Reshape.lean ====
/-
  Laying the tokens out flat and back: the flat function of the flattened code words, reshaped to (b, s, j), is the
  decoded embedding. Row R of the flat layout is token (R / 200, R % 200).
-/
import proofs.«410190_j39779987096003_1_alg».proof.Proof.Spec
import Idealize.ShloMosaic.Lib.Pipeline.Value

noncomputable section

namespace Cert.PqDecode

open Idealize.ShloMosaic Idealize.ShloMosaic.ValueIdx

/-- The flattened code words read at flat row R = b * 200 + s are the code words of token (b, s): the two positions
    (b * 200 + s) * 8 + g agree. -/
private theorem flat_codes (C : IVec (⟨3, ![1024, 200, 8]⟩ : Shape) 32)
    (h1 : (⟨3, ![1024, 200, 8]⟩ : Shape).ShapeCasts ⟨2, ![204800, 8]⟩)
    (b : Fin 1024) (s : Fin 200) (g : Fin 8) (R : Fin 204800) (hR : R.val = b.val * 200 + s.val) :
    shapeCast (⟨2, ![204800, 8]⟩ : Shape) C h1 (ix2 R g) = C (ix3 b s g) := by
  refine shapeCast_apply C h1 (ix2 R g) (ix3 b s g) ?_
  rw [Shape.rowMajor_val_three, Shape.rowMajor_val_two]
  show (b.val * 200 + s.val) * 8 + g.val = R.val * 8 + g.val
  rw [hR]

theorem reshape_Gflat (C : IVec (⟨3, ![1024, 200, 8]⟩ : Shape) 32) (cen : FVec Ideal (⟨3, ![8, 256, 16]⟩ : Shape) .f32)
    (h1 : (⟨3, ![1024, 200, 8]⟩ : Shape).ShapeCasts ⟨2, ![204800, 8]⟩)
    (h2 : (⟨2, ![204800, 128]⟩ : Shape).ShapeCasts ⟨3, ![1024, 200, 128]⟩) :
    shapeCast (⟨3, ![1024, 200, 128]⟩ : Shape) (Gflat (shapeCast (⟨2, ![204800, 8]⟩ : Shape) C h1) cen) h2 = G C cen := by
  funext i
  obtain ⟨b, s, j, rfl⟩ : ∃ (b : Fin 1024) (s : Fin 200) (j : Fin 128), i = ix3 b s j := ⟨i 0, i 1, i 2, eq_ix3 i⟩
  have hb : b.val < 1024 := b.isLt
  have hs : s.val < 200 := s.isLt
  have hR : b.val * 200 + s.val < 204800 := by omega
  -- entry (b, s, j) of the reshaped array is entry (b * 200 + s, j) of the flat one: both sit at position
  -- (b * 200 + s) * 128 + j
  refine (shapeCast_apply _ h2 (ix3 b s j) (ix2 (⟨b.val * 200 + s.val, hR⟩ : Fin 204800) j) ?_).trans ?_
  · rw [Shape.rowMajor_val_two, Shape.rowMajor_val_three]
    show (b.val * 200 + s.val) * 128 + j.val = (b.val * 200 + s.val) * 128 + j.val
    rfl
  · -- both sides read the codebooks at (group of j, row named by a code word, lane of j); the code words agree
    show cen (ix3 (grp j) (rowOfCode (shapeCast (⟨2, ![204800, 8]⟩ : Shape) C h1
        (ix2 (⟨b.val * 200 + s.val, hR⟩ : Fin 204800) (grp j)))) (lane j))
      = cen (ix3 (grp j) (rowOfCode (C (ix3 b s (grp j)))) (lane j))
    rw [flat_codes C h1 b s (grp j) ⟨b.val * 200 + s.val, hR⟩ rfl]

end Cert.PqDecode

end
-- ==== Proof.OneHot.lean ====
/-
  A one-hot row against a column: the sum over the 256 codebook rows of (1 if the code word is v, else 0) times f v is
  f at the code word, for a code word below 256. No finiteness is needed: 0 times anything is 0 on the extended reals.
-/
import Idealize.ShloMosaic.PureOps.Ideal

noncomputable section

namespace Cert.PqDecode

open Idealize.ShloMosaic

/-- A word compared with the word of its own value: the bit is set. -/
private theorem cmpi_eq_self (c : BitVec 32) : IntOp.cmpi .eq c (BitVec.ofNat 32 c.toNat) = 1#1 := by
  have h : c = BitVec.ofNat 32 c.toNat := by
    apply BitVec.eq_of_toNat_eq
    rw [BitVec.toNat_ofNat]
    exact (Nat.mod_eq_of_lt c.isLt).symm
  simp only [IntOp.cmpi]
  rw [← h]
  simp

/-- A word compared with the word of another small value: the bit is clear. -/
private theorem cmpi_eq_other (c : BitVec 32) (v : Nat) (hv : v < 256) (h : v ≠ c.toNat) :
    IntOp.cmpi .eq c (BitVec.ofNat 32 v) = 0#1 := by
  have hne : c ≠ BitVec.ofNat 32 v := by
    intro e
    apply h
    have e' := congrArg BitVec.toNat e
    rw [BitVec.toNat_ofNat] at e'
    omega
  have hb : (c == BitVec.ofNat 32 v) = false := by
    rw [beq_eq_false_iff_ne]; exact hne
  simp only [IntOp.cmpi, hb]
  rfl

theorem onehot_sum (c : BitVec 32) (hc : c.toNat < 256) (f : Fin 256 → EReal) :
    ∑ v : Fin 256, ((((IntOp.cmpi .eq c (BitVec.ofNat 32 v.val)).setWidth 32).toInt : ℝ) : EReal) * f v
      = f ⟨c.toNat, hc⟩ := by
  rw [Finset.sum_eq_single (⟨c.toNat, hc⟩ : Fin 256)]
  · -- the row the code word names: the bit is 1, and 1 * f v = f v
    rw [cmpi_eq_self c]
    have h1 : (((1#1 : BitVec 1).setWidth 32).toInt : ℤ) = 1 := by decide
    rw [h1]
    simp
  · -- any other row: the words differ, the bit is 0, and 0 * f v = 0
    intro v _ hv
    have hv' : v.val ≠ c.toNat := fun e => hv (Fin.ext e)
    rw [cmpi_eq_other c v.val v.isLt hv']
    have h0 : (((0#1 : BitVec 1).setWidth 32).toInt : ℤ) = 0 := by decide
    rw [h0]
    simp
  · intro h
    exact absurd (Finset.mem_univ _) h

end Cert.PqDecode

end
-- ==== Proof.KernelPayload.lean ====
/-
  What the kernel body leaves in its output block, read at (r, j): for lane group k = j / 16 the body multiplies the
  one-hot row of code word x0[r, k] against codebook k, and the eight products are laid side by side, so entry (r, j) is
  codebook k's row x0[r, k] at lane j % 16.
-/
import proofs.«410190_j39779987096003_1_alg».proof.Proof.Gen.KernelIdeal.Frame
import proofs.«410190_j39779987096003_1_alg».proof.Proof.Spec
import proofs.«410190_j39779987096003_1_alg».proof.Proof.OneHot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.PqValue

open Idealize.ShloMosaic Idealize.ShloMosaic.ValueIdx Cert.KernelIdeal Cert.KernelIdeal.Gen Cert.PqDecode

/-! ## The product's dimension numbers: rows by codebook rows, times codebook rows by lanes -/

/-- The dimension numbers of each of the eight products: a 4096x256 matrix times a 256x16 one, contracting the 256. -/
abbrev dotD := dot_S4096x256_S256x16_S4096x16_1_0_0_1_n_n

/-- The left operand is read at the output's row … -/
theorem lhsD_0 (j : S4096x16.Idx) (k : dotD.contr.Idx) : (dotD.lhsIdx j k 0 : ℕ) = j 0 := by
  simp [DotDims.lhsIdx, dotD, dot_S4096x256_S256x16_S4096x16_1_0_0_1_n_n]; rfl
/-- … and the contraction position; -/
theorem lhsD_1 (j : S4096x16.Idx) (k : dotD.contr.Idx) : (dotD.lhsIdx j k 1 : ℕ) = k ⟨0, by decide⟩ := by
  simp [DotDims.lhsIdx, dotD, dot_S4096x256_S256x16_S4096x16_1_0_0_1_n_n]; rfl
/-- the right operand at the contraction position … -/
theorem rhsD_0 (j : S4096x16.Idx) (k : dotD.contr.Idx) : (dotD.rhsIdx j k 0 : ℕ) = k ⟨0, by decide⟩ := by
  simp [DotDims.rhsIdx, dotD, dot_S4096x256_S256x16_S4096x16_1_0_0_1_n_n]; rfl
/-- … and the output's column. -/
theorem rhsD_1 (j : S4096x16.Idx) (k : dotD.contr.Idx) : (dotD.rhsIdx j k 1 : ℕ) = j 1 := by
  simp [DotDims.rhsIdx, dotD, dot_S4096x256_S256x16_S4096x16_1_0_0_1_n_n]; rfl

/-- The contraction index of the product is its one coordinate, a codebook row. -/
def contrD : dotD.contr.Idx ≃ Fin 256 := contrEquiv1 dotD 256 rfl rfl

/-- At output entry (r, e) and codebook row v the left operand is read at (r, v) … -/
theorem lhsD_eq (r : Fin 4096) (e : Fin 16) (v : Fin 256) : dotD.lhsIdx (ix2 r e) (contrD.symm v) = ix2 r v :=
  Shape.idx_ext₂ (by rw [lhsD_0]) (by rw [lhsD_1]; exact contrEquiv1_symm_val dotD 256 rfl rfl v)

/-- … and the right operand at (v, e). -/
theorem rhsD_eq (r : Fin 4096) (e : Fin 16) (v : Fin 256) : dotD.rhsIdx (ix2 r e) (contrD.symm v) = ix2 v e :=
  Shape.idx_ext₂ (by rw [rhsD_0]; exact contrEquiv1_symm_val dotD 256 rfl rfl v) (by rw [rhsD_1])

/-! ## The two operands of one lane group's product, read at an index -/

/-- Column k of the code block, spread along the 256 lanes, read at (r, v): code word (r, k). -/
theorem codes_col_apply (codes : IVec S4096x8 32) (off : Fin 2 → Nat) (hs : S4096x8.Slices off S4096x1)
    (hb : S4096x1.Broadcasts S4096x256) (k : Fin 8) (h0 : off 0 = 0) (h1 : off 1 = k.val) (r : Fin 4096) (v : Fin 256) :
    broadcastTo S4096x256 (extractStridedSlice S4096x1 off codes hs) hb (ix2 r v) = codes (ix2 r k) := by
  refine (broadcastTo_apply _ hb (ix2 r v) (ix2 r (0 : Fin 1)) fun a => ?_).trans ?_
  · match a with
    | ⟨0, _⟩ => rfl
    | ⟨1, _⟩ => rfl
  · refine extractStridedSlice_apply off codes hs (ix2 r (0 : Fin 1)) (ix2 r k) fun a => ?_
    match a with
    | ⟨0, _⟩ => show r.val = off 0 + r.val; omega
    | ⟨1, _⟩ => show k.val = off 1 + 0; omega

/-- Codebook k as the body loads it — the 1x256x16 rectangle at (k, 0, 0), its unit axis cast away — read at (v, e):
    entry (k, v, e) of the codebooks. -/
theorem codebook_apply (x1 : Vec Ideal S8x256x16 .f32) (off : Fin 3 → Nat)
    (inb : ∀ a, off a + S1x256x16.size a ≤ S8x256x16.size a) (hsc : S1x256x16.ShapeCasts S256x16)
    (k : Fin 8) (h0 : off 0 = k.val) (h1 : off 1 = 0) (h2 : off 2 = 0) (v : Fin 256) (e : Fin 16) :
    shapeCast S256x16 (View.ld x1 (Rect.unit (s := S8x256x16) off S1x256x16.size inb)) hsc (ix2 v e)
      = x1 (ix3 k v e) := by
  -- (v, e) of the 256x16 matrix and (0, v, e) of the 1x256x16 block have the same row-major position, 16 v + e
  refine (shapeCast_apply (s := S1x256x16) _ hsc (ix2 v e) (ix3 (0 : Fin 1) v e) ?_).trans ?_
  · rw [Shape.rowMajor_val_three, Shape.rowMajor_val_two]
    show (0 * 256 + v.val) * 16 + e.val = v.val * 16 + e.val
    omega
  -- and the rectangle at (k, 0, 0) places (0, v, e) at (k, v, e)
  · show x1 ((Rect.unit (s := S8x256x16) off S1x256x16.size inb).emb (ix3 (0 : Fin 1) v e)) = x1 (ix3 k v e)
    refine congrArg x1 (funext fun a => Fin.ext ?_)
    rw [Rect.emb_apply]
    match a with
    | ⟨0, _⟩ => show off 0 + 1 * 0 = k.val; omega
    | ⟨1, _⟩ => show off 1 + 1 * v.val = v.val; omega
    | ⟨2, _⟩ => show off 2 + 1 * e.val = e.val; omega

/-! ## One lane group's product -/

/-- One lane group's product read at (r, e): the sum over the 256 codebook rows v of (1 if code word (r, k) is v,
    else 0) times the codebook's entry (v, e), which is the codebook's row of that code word at lane e. -/
theorem onehot_product (codes : IVec S4096x8 32) (hc : ∀ q, (codes q).toNat < 256)
    (off : Fin 2 → Nat) (hs : S4096x8.Slices off S4096x1) (hb : S4096x1.Broadcasts S4096x256)
    (hi : S4096x256.Iotas .tc 32 [1]) (h132 : 1 < 32) (hbits : FTy.bits .bf16 < FTy.bits .f32)
    (k : Fin 8) (h0 : off 0 = 0) (h1 : off 1 = k.val)
    (cb : FVec Ideal S256x16 .f32) (r : Fin 4096) (e : Fin 16) :
    matmul (F := Ideal) dotD none
      (truncf .bf16 (sitofp .f32 (extui 32 (cmpi .eq (broadcastTo S4096x256 (extractStridedSlice S4096x1 off codes hs) hb)
        (iota .tc S4096x256 32 [1] hi)) h132)) hbits)
      (truncf .bf16 cb hbits) (constant S4096x16 .f32 0x00000000#32) (ix2 r e)
    = cb (ix2 ⟨(codes (ix2 r k)).toNat, hc _⟩ e) := by
  -- into a zero accumulator the product is the bare sum over the contraction index, re-indexed by the codebook row
  refine (Ideal.matmul_constant_zero_apply dotD none _ _ (ix2 r e)).trans ?_
  rw [← Equiv.sum_comp contrD.symm]
  -- term v is (the bit "code word (r, k) = v", widened and read as a real) times the codebook's entry (v, e)
  refine Eq.trans (Finset.sum_congr rfl fun v _ => ?_)
    (onehot_sum (codes (ix2 r k)) (hc _) fun v => cb (ix2 v e))
  rw [lhsD_eq, rhsD_eq]
  show ((((IntOp.cmpi .eq (broadcastTo S4096x256 (extractStridedSlice S4096x1 off codes hs) hb (ix2 r v))
      (iota .tc S4096x256 32 [1] hi (ix2 r v))).setWidth 32).toInt : ℝ) : EReal) * cb (ix2 v e) = _
  rw [codes_col_apply codes off hs hb k h0 h1 r v, iota_single_apply]

/-- One lane group's product as the body computes it: the one-hot rows of column off of the code block, as floats,
    times a codebook, into a zero accumulator. -/
def groupProduct (codes : IVec S4096x8 32) (off : Fin 2 → Nat) (hs : S4096x8.Slices off S4096x1)
    (cb : FVec Ideal S256x16 .f32) : FVec Ideal S4096x16 .f32 :=
  matmul (F := Ideal) dotD none
    (truncf .bf16 (sitofp .f32 (extui 32 (cmpi .eq
      (broadcastTo S4096x256 (extractStridedSlice S4096x1 off codes hs) broadcasts_S4096x1_S4096x256)
      (iota .tc S4096x256 32 [1] iota_S4096x256_d1_w32)) natLt_1_32)) bitsLt_bf16_f32)
    (truncf .bf16 cb bitsLt_bf16_f32) (constant S4096x16 .f32 0x00000000#32)

/-- The body's first shape cast keeps the code block's shape: it is the code block. -/
theorem pay1_eq (x0 : Vec Ideal S4096x8 .i32) : k0_pay1 (F := Ideal) x0 = x0 :=
  shapeCast_self x0 shapeCasts_S4096x8_S4096x8

/-- Group k's product at (r, e) is codebook k's row of code word (r, k), at lane e (a code word below 256 names the
    row of its own value). -/
theorem groupProduct_apply (x0 : Vec Ideal S4096x8 .i32) (x1 : Vec Ideal S8x256x16 .f32)
    (hx : ∀ q, (x0 q : BitVec 32).toNat < 256) (off : Fin 2 → Nat) (hs : S4096x8.Slices off S4096x1)
    (off' : Fin 3 → Nat) (inb : ∀ a, off' a + S1x256x16.size a ≤ S8x256x16.size a)
    (k : Fin 8) (h0 : off 0 = 0) (h1 : off 1 = k.val) (h0' : off' 0 = k.val) (h1' : off' 1 = 0) (h2' : off' 2 = 0)
    (r : Fin 4096) (e : Fin 16) :
    groupProduct (k0_pay1 x0) off hs
        (shapeCast S256x16 (View.ld x1 (Rect.unit (s := S8x256x16) off' S1x256x16.size inb)) shapeCasts_S1x256x16_S256x16)
        (ix2 r e)
      = x1 (ix3 k (rowOfCode (x0 (ix2 r k))) e) := by
  have hrow : (⟨(x0 (ix2 r k) : BitVec 32).toNat, hx _⟩ : Fin 256) = rowOfCode (x0 (ix2 r k)) :=
    Fin.ext (Nat.mod_eq_of_lt (hx _)).symm
  rw [pay1_eq]
  unfold groupProduct
  refine (onehot_product x0 hx off hs _ _ _ _ k h0 h1 _ r e).trans ?_
  rw [hrow]
  exact codebook_apply x1 off' inb _ k h0' h1' h2' _ e

/-! ## The eight products side by side -/

/-- The eight products the body lays side by side, by lane group: group k takes column k of the code block and
    codebook k. -/
def pieces (x0 : Vec Ideal S4096x8 .i32) (x1 : Vec Ideal S8x256x16 .f32) : Fin 8 → FVec Ideal S4096x16 .f32
  | ⟨0, _⟩ => groupProduct (k0_pay1 x0) ![0, 0] slices_S4096x8_o0_0_S4096x1 (shapeCast S256x16 (View.ld x1 r0_1) shapeCasts_S1x256x16_S256x16)
  | ⟨1, _⟩ => groupProduct (k0_pay1 x0) ![0, 1] slices_S4096x8_o0_1_S4096x1 (shapeCast S256x16 (View.ld x1 r0_2) shapeCasts_S1x256x16_S256x16)
  | ⟨2, _⟩ => groupProduct (k0_pay1 x0) ![0, 2] slices_S4096x8_o0_2_S4096x1 (shapeCast S256x16 (View.ld x1 r0_3) shapeCasts_S1x256x16_S256x16)
  | ⟨3, _⟩ => groupProduct (k0_pay1 x0) ![0, 3] slices_S4096x8_o0_3_S4096x1 (shapeCast S256x16 (View.ld x1 r0_4) shapeCasts_S1x256x16_S256x16)
  | ⟨4, _⟩ => groupProduct (k0_pay1 x0) ![0, 4] slices_S4096x8_o0_4_S4096x1 (shapeCast S256x16 (View.ld x1 r0_5) shapeCasts_S1x256x16_S256x16)
  | ⟨5, _⟩ => groupProduct (k0_pay1 x0) ![0, 5] slices_S4096x8_o0_5_S4096x1 (shapeCast S256x16 (View.ld x1 r0_6) shapeCasts_S1x256x16_S256x16)
  | ⟨6, _⟩ => groupProduct (k0_pay1 x0) ![0, 6] slices_S4096x8_o0_6_S4096x1 (shapeCast S256x16 (View.ld x1 r0_7) shapeCasts_S1x256x16_S256x16)
  | ⟨7, _⟩ => groupProduct (k0_pay1 x0) ![0, 7] slices_S4096x8_o0_7_S4096x1 (shapeCast S256x16 (View.ld x1 r0_8) shapeCasts_S1x256x16_S256x16)

/-- The stored value is the concatenation of the eight products along the lanes (each payload unfolds to its
    product). -/
theorem pay7_eq (x0 : Vec Ideal S4096x8 .i32) (x1 : Vec Ideal S8x256x16 .f32) :
    k0_pay7 (F := Ideal) (k0_pay1 x0) (iota .tc S4096x256 32 [1] iota_S4096x256_d1_w32) (k0_pay2 x0 (View.ld x1 r0_1))
      (k0_pay3 x0 (View.ld x1 r0_2)) (k0_pay4 x0 (View.ld x1 r0_3)) (k0_pay5 x0) (k0_pay6 (View.ld x1 r0_4))
      (View.ld x1 r0_5) (View.ld x1 r0_6) (View.ld x1 r0_7) (View.ld x1 r0_8)
    = concatenate S4096x128 1 (List.ofFn fun n : Fin 8 => (⟨S4096x16, pieces x0 x1 n⟩ : (s : Shape) × (s.Idx → Ideal .f32)))
        concatenates_S4096x16_S4096x16_S4096x16_S4096x16_S4096x16_S4096x16_S4096x16_S4096x16_S4096x128_d1 := rfl

/-- Each of the eight products at (r, e): codebook k's row of code word (r, k), at lane e. -/
theorem pieces_apply (x0 : Vec Ideal S4096x8 .i32) (x1 : Vec Ideal S8x256x16 .f32)
    (hx : ∀ q, (x0 q : BitVec 32).toNat < 256) (k : Fin 8) (r : Fin 4096) (e : Fin 16) :
    pieces x0 x1 k (ix2 r e) = x1 (ix3 k (rowOfCode (x0 (ix2 r k))) e) := by
  match k with
  | ⟨0, _⟩ => exact groupProduct_apply x0 x1 hx _ _ _ _ ⟨0, by decide⟩ rfl rfl rfl rfl rfl r e
  | ⟨1, _⟩ => exact groupProduct_apply x0 x1 hx _ _ _ _ ⟨1, by decide⟩ rfl rfl rfl rfl rfl r e
  | ⟨2, _⟩ => exact groupProduct_apply x0 x1 hx _ _ _ _ ⟨2, by decide⟩ rfl rfl rfl rfl rfl r e
  | ⟨3, _⟩ => exact groupProduct_apply x0 x1 hx _ _ _ _ ⟨3, by decide⟩ rfl rfl rfl rfl rfl r e
  | ⟨4, _⟩ => exact groupProduct_apply x0 x1 hx _ _ _ _ ⟨4, by decide⟩ rfl rfl rfl rfl rfl r e
  | ⟨5, _⟩ => exact groupProduct_apply x0 x1 hx _ _ _ _ ⟨5, by decide⟩ rfl rfl rfl rfl rfl r e
  | ⟨6, _⟩ => exact groupProduct_apply x0 x1 hx _ _ _ _ ⟨6, by decide⟩ rfl rfl rfl rfl rfl r e
  | ⟨7, _⟩ => exact groupProduct_apply x0 x1 hx _ _ _ _ ⟨7, by decide⟩ rfl rfl rfl rfl rfl r e

/-! ## The stored block at an index -/

theorem out_apply (x0 : Vec Ideal S4096x8 .i32) (x1 : Vec Ideal S8x256x16 .f32)
    (hx : ∀ q, (x0 q : BitVec 32).toNat < 256) (r : Fin 4096) (j : Fin 128) :
    out0_2 (F := Ideal) x0 x1 (ix2 r j) = x1 (ix3 (grp j) (rowOfCode (x0 (ix2 r (grp j)))) (lane j)) := by
  have hz : (![0, 0] : Fin 2 → Nat) = fun _ => 0 := by funext a; fin_cases a <;> rfl
  -- the one store covers the whole block, and the code block is loaded whole
  unfold out0_2
  rw [View.canon_unit_zero (S := S4096x128) hz]
  simp only [View.ld_unit_zero (S := S4096x8) hz]
  -- lane j of the eight 16-lane products laid side by side is lane j % 16 of product j / 16
  rw [pay7_eq]
  refine (concatenate_ofFn_apply (t := S4096x128) (s₁ := S4096x16) 1 (pieces x0 x1) _ rfl 16 rfl (ix2 r j) (grp j) rfl
    (ix2 r (lane j)) rfl fun b hb => ?_).trans (pieces_apply x0 x1 hx (grp j) r (lane j))
  match b with
  | ⟨0, _⟩ => rfl
  | ⟨1, _⟩ => exact absurd rfl hb

end Cert.KernelIdeal.PqValue

end
-- ==== Proof.KernelBlocks.lean ====
/-
  The region's output array after the run. Grid point t handles flat rows 4096 t … 4096 t + 4095: its code block is
  those rows of the flat code array, its codebook block is the whole codebook array, and what it writes back is those
  rows of the flat decoded embedding. The fifty blocks tile the 204800 rows (row R lies in block R / 4096), so the
  array ends at the flat decoded embedding of the code words the region found.
-/
import proofs.«410190_j39779987096003_1_alg».proof.Proof.Gen.KernelIdeal.Frame
import proofs.«410190_j39779987096003_1_alg».proof.Proof.Spec
import proofs.«410190_j39779987096003_1_alg».proof.Proof.KernelPayload
import Idealize.ShloMosaic.Lib.Pipeline.Value
import Idealize.ShloMosaic.PureOps.Ideal

noncomputable section

namespace Cert.KernelIdeal.PqValue

open Idealize.ShloMosaic Idealize.ShloMosaic.TcCoe Idealize.SL.Sem Idealize.ShloMosaic.ValueIdx
open Idealize.ShloMosaic.Pipeline (Dat)
open Cert.KernelIdeal Cert.KernelIdeal.Gen Cert.PqDecode

variable (m : (ℓ : Loc nD τ sig) → Buf (Elt Ideal) ℓ)

/-- The flat decoded embedding at an index whose coordinates are (R, j). -/
theorem Gflat_apply (X : IVec (⟨2, ![204800, 8]⟩ : Shape) 32) (cen : FVec Ideal (⟨3, ![8, 256, 16]⟩ : Shape) .f32)
    (i : (⟨2, ![204800, 128]⟩ : Shape).Idx) (R : Fin 204800) (j : Fin 128) (h0 : (i 0).val = R.val) (h1 : (i 1).val = j.val) :
    Gflat X cen i = cen (ix3 (grp j) (rowOfCode (X (ix2 R (grp j)))) (lane j)) := by
  have e : i = ix2 R j := by
    funext a; apply Fin.ext
    match a with
    | ⟨0, _⟩ => exact h0
    | ⟨1, _⟩ => exact h1
  subst e
  rfl

/-- The printed index maps over the grid: point t takes row block t of the codes and of the output, and the one
    block of the codebooks. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

theorem row_lt (t : Fin cfg0.N) (r : Fin 4096) : t.val * 4096 + r.val < 204800 := by
  have hN : cfg0.N = 50 := N_0
  have := t.isLt; have := r.isLt; omega

/-- The code block of point t is rows 4096 t … of the flat code array. -/
theorem codes_blk (c : Dev nD) (t : Fin cfg0.N) (r : Fin 4096) (k : Fin 8) :
    (iblk m c 0 t : Vec Ideal S4096x8 .i32) (ix2 r k)
      = (V m c main_v7 : S204800x8.Idx → BitVec 32) (ix2 ⟨t.val * 4096 + r.val, row_lt t r⟩ k) := by
  obtain ⟨e0, e1, -⟩ := idx_facts t
  unfold iblk
  rw [View.read_apply]
  show V m c main_v7 _ = V m c main_v7 _
  congr 1
  funext a; apply Fin.ext
  match a with
  | ⟨0, _⟩ => show win0_0.index t (0 : Fin 2) * 4096 + 1 * r.val = t.val * 4096 + r.val; rw [e0]; omega
  | ⟨1, _⟩ => show win0_0.index t (1 : Fin 2) * 8 + 1 * k.val = k.val; rw [e1]; omega

/-- The codebook block of every point is the whole codebook array. -/
theorem cen_blk (c : Dev nD) (t : Fin cfg0.N) (a : Fin 8) (v : Fin 256) (e : Fin 16) :
    (iblk m c 1 t : Vec Ideal S8x256x16 .f32) (ix3 a v e) = (V m c main_arg2 : S8x256x16.Idx → EReal) (ix3 a v e) := by
  obtain ⟨-, -, e2, e3, e4, -⟩ := idx_facts t
  unfold iblk
  rw [View.read_apply]
  show V m c main_arg2 _ = V m c main_arg2 _
  congr 1
  funext b; apply Fin.ext
  match b with
  | ⟨0, _⟩ => show win0_1.index t (0 : Fin 3) * 8 + 1 * a.val = a.val; rw [e2]; omega
  | ⟨1, _⟩ => show win0_1.index t (1 : Fin 3) * 256 + 1 * v.val = v.val; rw [e3]; omega
  | ⟨2, _⟩ => show win0_1.index t (2 : Fin 3) * 16 + 1 * e.val = e.val; rw [e4]; omega

/-- What point t writes back is block t of the flat decoded embedding, when every code word the region found is below 256. -/
theorem flushed_eq (c : Dev nD) (hX : ∀ q, ((V m c main_v7 : S204800x8.Idx → BitVec 32) q).toNat < 256) (t : Fin cfg0.N) :
    (dats m 0 c).flushed 2 t
      = ((cfg0.win 2).blk t).view.read (Elt Ideal) (Gflat (V m c main_v7) (V m c main_arg2)) := by
  show (cfg0.win 2).cut (grid0.coords t) ((dats m 0 c).after 2 t) = _
  rw [after0_2]
  funext y
  obtain ⟨r, j, rfl⟩ : ∃ (r : Fin 4096) (j : Fin 128), y = ix2 r j := ⟨y 0, y 1, eq_ix2 y⟩
  show out0_2 (iblk m c 0 t) (iblk m c 1 t) (ix2 r j)
    = Gflat (V m c main_v7) (V m c main_arg2) (((cfg0.win 2).blk t).view.emb (ix2 r j))
  obtain ⟨-, -, -, -, -, e5, e6⟩ := idx_facts t
  refine (out_apply (iblk m c 0 t) (iblk m c 1 t) (fun q => ?_) r j).trans ?_
  · obtain ⟨r', k', rfl⟩ : ∃ (r' : Fin 4096) (k' : Fin 8), q = ix2 r' k' := ⟨q 0, q 1, eq_ix2 q⟩
    rw [codes_blk m c t r' k']
    exact hX _
  · rw [cen_blk m c t, codes_blk m c t]
    refine (Gflat_apply _ _ _ ⟨t.val * 4096 + r.val, row_lt t r⟩ j ?_ ?_).symm
    · show win0_2.index t (0 : Fin 2) * 4096 + 1 * r.val = t.val * 4096 + r.val; rw [e5]; omega
    · show win0_2.index t (1 : Fin 2) * 128 + 1 * j.val = j.val; rw [e6]; omega

/-- An index of the output array lies in point t's block iff each coordinate lies in the block's range. -/
theorem mem_blk (t : Fin cfg0.N) (i : S204800x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v8).slice (win0_2.rect t)).set ↔ _
  rw [View.set_slice_whole, Rect.mem_set_unit]
  exact Iff.rfl

/-- The output array after the run is the flat decoded embedding of the code words the region found. -/
theorem final (c : Dev nD) (hX : ∀ q, ((V m c main_v7 : S204800x8.Idx → BitVec 32) q).toNat < 256) :
    (dats m 0 c).arrAt 2 cfg0.N = Gflat (V m c main_v7) (V m c main_arg2) :=
  (dats m 0 c).arrAt_eq_of_cover 2 (Gflat (V m c main_v7) (V m c main_arg2)) (fun t _ => flushed_eq m c hX t) fun i => by
    have hi0 : (i 0).val < 204800 := (i 0).isLt
    have hi1 : (i 1).val < 128 := (i 1).isLt
    have hN : cfg0.N = 50 := N_0
    have ht : (i 0).val / 4096 < cfg0.N := by omega
    obtain ⟨-, -, -, -, -, e5, e6⟩ := idx_facts ⟨(i 0).val / 4096, ht⟩
    refine ⟨⟨(i 0).val / 4096, ht⟩, flush0_2 _, ?_⟩
    rw [mem_blk]
    intro a
    match a with
    | ⟨0, _⟩ =>
      show win0_2.index ⟨(i 0).val / 4096, ht⟩ (0 : Fin 2) * 4096 ≤ (i 0).val
        ∧ (i 0).val < win0_2.index ⟨(i 0).val / 4096, ht⟩ (0 : Fin 2) * 4096 + 4096
      rw [e5]; show (i 0).val / 4096 * 4096 ≤ (i 0).val ∧ (i 0).val < (i 0).val / 4096 * 4096 + 4096; omega
    | ⟨1, _⟩ =>
      show win0_2.index ⟨(i 0).val / 4096, ht⟩ (1 : Fin 2) * 128 ≤ (i 1).val
        ∧ (i 1).val < win0_2.index ⟨(i 0).val / 4096, ht⟩ (1 : Fin 2) * 128 + 128
      rw [e6]; omega

end Cert.KernelIdeal.PqValue

end
-- ==== Proof.KernelRun.lean ====
/-
  The kernel program's run, read. Before the region the host gathers the tokens' code words out of the code table and
  lays the tokens out flat; after it, it reshapes the flat result to (b, s, j). Every gathered code word is an entry of
  the code table, so it is below 256 when every entry is; the region's output is then the flat decoded embedding, and
  the reshape makes it the decoded embedding of the gathered code words.
-/
import proofs.«410190_j39779987096003_1_alg».proof.Proof.Gen.KernelIdeal.Frame
import proofs.«410190_j39779987096003_1_alg».proof.Proof.Spec
import proofs.«410190_j39779987096003_1_alg».proof.Proof.Reshape
import proofs.«410190_j39779987096003_1_alg».proof.Proof.KernelBlocks
import Idealize.ShloMosaic.Lib.StableHlo.Run
import Idealize.ShloMosaic.Lib.Pipeline.Value
import Idealize.ShloMosaic.PureOps.Ideal

noncomputable section

namespace Cert.KernelIdeal.PqValue

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen Cert.PqDecode

variable (m : (ℓ : Loc nD τ sig) → Buf (Elt Ideal) ℓ) (ρ : Dev nD → PrngReg)

/-- The tokens' code words as the host gathers them: row input_ids[b, s] of the code table (a negative id counted from
    the end, the row clamped into the table). -/
def Ck (ids : IVec S1024x200 32) (tab : IVec S1000002x8 32) : IVec S1024x200x8 32 :=
  Host.gather gather_S1000002x8_S1024x200x1_S1024x200x8_2_0_n_n_0_2_18 tab
    (broadcastInDim S1024x200x1 ![0, 1] bcast_S1024x200_S1024x200x1_0_1
      (select (cmpi .slt ids (broadcastInDim S1024x200 ![] bcast_S_S1024x200 (constantI S_ 32 0#32)))
        (addi ids (broadcastInDim S1024x200 ![] bcast_S_S1024x200 (constantI S_ 32 1000002#32))) ids))

/-- A gathered code word is an entry of the code table. -/
theorem Ck_range (ids : IVec S1024x200 32) (tab : IVec S1000002x8 32) (hT : ∀ q, (tab q).toNat < 256) :
    ∀ i, (Ck ids tab i).toNat < 256 := fun i => hT _

/-- The flat code array the region finds. -/
theorem V_codes (c : Dev nD) : (V m c main_v7 : S204800x8.Idx → BitVec 32)
    = shapeCast S204800x8 (Ck (m ((c : Thread nD τ).loc main_arg0)) (m ((c : Thread nD τ).loc main_arg1)))
        shapeCasts_S1024x200x8_S204800x8 := by
  show StableHlo.after hostOps0 (fun b => m (c, b)) (Proc.devRef .tc main_v7) = _
  after_results
  rfl

/-- Every entry of the flat code array is a gathered code word. -/
theorem V_codes_range (c : Dev nD) (hT : ∀ q, ((m ((c : Thread nD τ).loc main_arg1) : S1000002x8.Idx → BitVec 32) q).toNat < 256) :
    ∀ q, ((V m c main_v7 : S204800x8.Idx → BitVec 32) q).toNat < 256 := by
  intro q
  rw [V_codes m c]
  exact Ck_range _ _ hT _

/-- The program's result: the decoded embedding of the gathered code words. -/
theorem result_eq (c : Dev nD) (hT : ∀ q, ((m ((c : Thread nD τ).loc main_arg1) : S1000002x8.Idx → BitVec 32) q).toNat < 256) :
    Pipeline.afterTail₀ cfgs (dats m) 0 (V0 m) [hostOps1] c main_v9
      = G (Ck (m ((c : Thread nD τ).loc main_arg0)) (m ((c : Thread nD τ).loc main_arg1))) (m ((c : Thread nD τ).loc main_arg2)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v8)
      = Gflat (shapeCast S204800x8 (Ck (m ((c : Thread nD τ).loc main_arg0)) (m ((c : Thread nD τ).loc main_arg1)))
          shapeCasts_S1024x200x8_S204800x8) (m ((c : Thread nD τ).loc main_arg2)) := by
    refine (Pipeline.withArrays_arr spec0 launch0.win.arr_inj c _ _ 2).trans ?_
    show (dats m 0 c).arrAt 2 cfg0.N = _
    rw [final m c (V_codes_range m c hT), V_codes m c, V_main_arg2 m c]
  rw [e]
  exact reshape_Gflat _ _ _ _

/-- The run: every weakly fair execution ends with the result at the decoded embedding of the gathered code words and
    the three argument arrays as they were, when every entry of the code table is below 256. -/
theorem run (hT : ∀ (c : Dev nD) q, ((m ((c : Thread nD τ).loc main_arg1) : S1000002x8.Idx → BitVec 32) q).toNat < 256) :
    θ_run defs (onTc (τ := τ) (main (F := Ideal))) ⟨m, fun _ => 0, ρ⟩ fun r => ∀ c : Dev nD,
      r.2.mem ((c : Thread nD τ).loc main_v9)
        = G (Ck (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v9 (Pipeline.mem_restRefs_of main_v9 (by decide) (by decide))).trans (result_eq m c (hT c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).1 1).trans (((dats m 0 c).arrAt_in 1 rfl _).trans ((A_eq m c 1).trans (V_main_arg2 m c)))⟩)
    (run_main m ρ)

end Cert.KernelIdeal.PqValue

end
-- ==== Proof.lean ====
/-
  The certificate of the product-quantisation decode. The kernel turns each code word into a one-hot row and multiplies
  it against its sub-codebook; the reference looks the row up. The two agree exactly when every code word names a row,
  that is when every entry of the code table lies between 0 and 255, which the precondition states; under it the one-hot
  sum has one non-zero term, the reference's negative-index wrap and the gather's clamp move nothing, and both programs
  end at the decoded embedding of the code words they both gather from the code table in the same way.
  The three frames are the generated ones (the reference's is its generated run with the result dropped); nothing was
  rewritten by the idealization, so the idealization claim is trivial.
-/
import proofs.«410190_j39779987096003_1_alg».proof.Defs
import proofs.«410190_j39779987096003_1_alg».proof.Proof.Gen.Kernel
import proofs.«410190_j39779987096003_1_alg».proof.Proof.Gen.Kernel.Skeleton
import proofs.«410190_j39779987096003_1_alg».proof.Proof.Gen.Kernel.Launch
import proofs.«410190_j39779987096003_1_alg».proof.Proof.Gen.Kernel.Points
import proofs.«410190_j39779987096003_1_alg».proof.Proof.Gen.Kernel.Frame
import proofs.«410190_j39779987096003_1_alg».proof.Proof.Gen.KernelIdeal
import proofs.«410190_j39779987096003_1_alg».proof.Proof.Gen.KernelIdeal.Skeleton
import proofs.«410190_j39779987096003_1_alg».proof.Proof.Gen.KernelIdeal.Launch
import proofs.«410190_j39779987096003_1_alg».proof.Proof.Gen.KernelIdeal.Points
import proofs.«410190_j39779987096003_1_alg».proof.Proof.Gen.KernelIdeal.Frame
import proofs.«410190_j39779987096003_1_alg».proof.Proof.Gen.ReferenceIdeal
import proofs.«410190_j39779987096003_1_alg».proof.Proof.Gen.Pre_finite_inputs
import proofs.«410190_j39779987096003_1_alg».proof.Proof.Gen.ReferenceIdeal.Run
import proofs.«410190_j39779987096003_1_alg».proof.Proof.Gen.ReferenceIdeal.Read
import proofs.«410190_j39779987096003_1_alg».proof.Proof.PreFacts
import proofs.«410190_j39779987096003_1_alg».proof.Proof.RefValue
import proofs.«410190_j39779987096003_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the decoded embedding of the code words gathered from the code table: the kernel's run states
    it of its own gather, the reference's run of the same gather, and the arguments agree. -/
theorem algebraic : Cert.algebraic_KernelIdeal_ReferenceIdeal := by
  intro m ρ m' ρ' hpre hagree
  have hT : ∀ (c : Dev Cert.KernelIdeal.nD) q,
      ((m ((c.tc : Thread Cert.KernelIdeal.nD Cert.KernelIdeal.τ).loc Cert.KernelIdeal.main_arg1)
        : Cert.KernelIdeal.S1000002x8.Idx → BitVec 32) q).toNat < 256 :=
    fun c => Cert.PqDecode.codes_in_range _ _ _ (hpre c)
  refine ⟨fun c => Cert.PqDecode.G
      (Cert.KernelIdeal.PqValue.Ck (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    Cert.KernelIdeal.PqValue.run m ρ hT, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.PqRef.ref_eq_G _ _ _ (fun i => hT c _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
